-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384x2048 .f32) (main_arg1 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Kernel.lean ====
abbrev S16384x2048 : Shape := ⟨2, ![16384, 2048]⟩
abbrev S2048 : Shape := ⟨1, ![2048]⟩
abbrev S1x2048 : Shape := ⟨2, ![1, 2048]⟩
abbrev S1024x2048 : Shape := ⟨2, ![1024, 2048]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S16384x2048.size a
  hwx0_2 : ∀ i : grid0.Coords, EltTy.bits .f32 = 32 ∨ (Rect.block (s := S16384x2048) S1024x2048.size (cc0_transform_2 i) (hinb0_2 i)).WholeWords (EltTy.packing .f32)

variable [Facts₀]

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S16384x2048 : Shape := ⟨2, ![16384, 2048]⟩
abbrev S2048 : Shape := ⟨1, ![2048]⟩
abbrev S1x2048 : Shape := ⟨2, ![1, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .f32⟩
  | .hbm, ⟨4, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)

variable [Facts₀]

class Facts : Prop extends Facts₀ where

variable [Facts]
-- ==== Proof.ColumnScale.lean ====
/-
  Column scaling, the one function both programs compute: for a matrix `x` of 16384 rows and 2048 columns and a
  vector `d` of 2048 entries, the result has `x[r, c] · d[c]` at row `r`, column `c` — the product of `x` with the
  diagonal matrix of `d`, written without the zeros. The product is the float multiplication of whatever number system the
  programs are read at; nothing here depends on which, and no law of arithmetic is used: the two programs perform the
  very same multiplication at every entry and differ only in how they lay the vector `d` beside the rows of `x`.
-/
import Idealize.ShloMosaic.Lib.ValueIdx
import Idealize.ShloMosaic.Lib.Pipeline.Value

noncomputable section

namespace Cert.ColumnScale

open Idealize.ShloMosaic

variable {F : FTy → Type} [FloatOps F]

/-- The matrix shape, the vector shape and the shape of the vector laid out as one row. -/
abbrev Mat : Shape := ⟨2, ![16384, 2048]⟩
abbrev Vct : Shape := ⟨1, ![2048]⟩
abbrev Row : Shape := ⟨2, ![1, 2048]⟩

/-- The vector index under a matrix index: its column. -/
abbrev colOf (i : Mat.Idx) : Vct.Idx := fun a => match a with
  | ⟨0, _⟩ => ⟨(i 1).val, (i 1).isLt⟩

/-- The index of the one-row layout under a matrix index: row `0`, the same column. -/
abbrev rowOf (i : Mat.Idx) : Row.Idx := fun a => match a with
  | ⟨0, _⟩ => ⟨0, Nat.one_pos⟩
  | ⟨1, _⟩ => ⟨(i 1).val, (i 1).isLt⟩

/-- The vector index under an index of the one-row layout: its column. -/
abbrev colOfRow (k : Row.Idx) : Vct.Idx := fun a => match a with
  | ⟨0, _⟩ => ⟨(k 1).val, (k 1).isLt⟩

/-- COLUMN SCALING: entry `(r, c)` of the result is `x[r, c] · d[c]`. -/
def colScale (x : Mat.Idx → Elt F .f32) (d : Vct.Idx → Elt F .f32) : Mat.Idx → Elt F .f32 :=
  fun i => FloatOps.mulf (x i) (d (colOf i))

/-- The same with the vector given as one row `e` of a `1 × 2048` matrix: entry `(r, c)` is `x[r, c] · e[0, c]`. -/
def rowScale (x : Mat.Idx → Elt F .f32) (e : Row.Idx → Elt F .f32) : Mat.Idx → Elt F .f32 :=
  fun i => FloatOps.mulf (x i) (e (rowOf i))

/-- The column under `(0, c)` is the column under `(r, c)`. -/
theorem colOfRow_rowOf (i : Mat.Idx) : colOfRow (rowOf i) = colOf i :=
  funext fun a => match a with | ⟨0, _⟩ => rfl

/-- Scaling by a row whose entry `(0, c)` is `d[c]` is scaling by `d`. -/
theorem rowScale_eq_colScale (x : Mat.Idx → Elt F .f32) (e : Row.Idx → Elt F .f32) (d : Vct.Idx → Elt F .f32)
    (he : ∀ k : Row.Idx, e k = d (colOfRow k)) : rowScale x e = colScale x d := by
  funext i
  show FloatOps.mulf (x i) (e (rowOf i)) = FloatOps.mulf (x i) (d (colOf i))
  rw [he (rowOf i), colOfRow_rowOf]

/-- A vector reshaped to one row has `d[c]` at `(0, c)`: the two indices have the same position in row-major order. -/
theorem shapeCast_row_apply (d : Vct.Idx → Elt F .f32) (h : Vct.ShapeCasts Row) (k : Row.Idx) :
    shapeCast Row d h k = d (colOfRow k) := by
  refine shapeCast_apply d h k (colOfRow k) ?_
  have h0 : (k 0).val < 1 := (k 0).isLt
  rw [Shape.rowMajor_val_one, Shape.rowMajor_val_two]
  show (k 1).val = (k 0).val * 2048 + (k 1).val
  omega

end Cert.ColumnScale

end
-- ==== Proof.KernelValue.lean ====
/-
  The kernel, read as one function of its arguments. Before the launch the vector `d` is reshaped to one row, and the
  result's buffer starts as a copy of `x`. The grid has 16 points; point `t` stages rows `1024·t … 1024·t + 1023` of
  `x`, the whole row vector, and writes back the same rows of the result: each staged row of `x` multiplied, entry by entry,
  with the row vector. So what point `t` writes back is block `t` of ONE array — `x` scaled column by column by the row
  vector —, the 16 blocks cover every row, and the result ends as the column scaling of `x` by `d`.
-/
import proofs.«408189_j82197084111240_3_alg».proof.Proof.Gen.KernelIdeal.Value
import proofs.«408189_j82197084111240_3_alg».proof.Proof.ColumnScale

set_option maxRecDepth 16384

noncomputable section

namespace Cert.KernelIdeal.ColumnScale

open Cert.KernelIdeal Cert.KernelIdeal.Gen Idealize.ShloMosaic Idealize.ShloMosaic.TcCoe Idealize.SL.Sem
open Idealize.ShloMosaic.Pipeline (Dat)
open Cert.ColumnScale

variable {F : FTy → Type} [FloatOps F]
variable (m : (ℓ : Loc nD τ sig) → Buf (Elt F) ℓ) (ρ : Dev nD → PrngReg)

/-! ## The body at one grid point -/

theorem zeros2 : (![0, 0] : Fin 2 → Nat) = fun _ => 0 := funext fun a => by fin_cases a <;> rfl

/-- The index `(0, c)` of the staged row vector under entry `(r, c)` of a block of 1024 rows. -/
abbrev rowOfBlk (y : S1024x2048.Idx) : S1x2048.Idx := fun a => match a with
  | ⟨0, _⟩ => ⟨0, Nat.one_pos⟩
  | ⟨1, _⟩ => ⟨(y 1).val, (y 1).isLt⟩

/-- What the body leaves in the output's staging buffer, from a staged block `x0` of `x` and the staged row vector `x1`:
    entry `(r, c)` is `x0[r, c] · x1[0, c]`. -/
theorem body_apply (x0 : Vec F S1024x2048 .f32) (x1 : Vec F S1x2048 .f32) (y : S1024x2048.Idx) :
    out0_2 x0 x1 y = FloatOps.mulf (x0 y) (x1 (rowOfBlk y)) := by
  unfold out0_2
  refine (Value.canon2_eq (View.ld x0 r0_0) (View.ld x1 r0_1) y).trans ?_
  show FloatOps.mulf (View.ld x0 r0_0 (Value.ix2_0 y)) (View.ld x1 r0_1 (Value.ix2_1 y)) = _
  rw [View.ld_unit_zero (S := S1024x2048) zeros2, View.ld_unit_zero (S := S1x2048) zeros2]
  have e0 : Value.ix2_0 y = y := funext fun a => match a with | ⟨0, _⟩ => rfl | ⟨1, _⟩ => rfl
  have e1 : Value.ix2_1 y = rowOfBlk y := funext fun a => match a with | ⟨0, _⟩ => rfl | ⟨1, _⟩ => rfl
  rw [e0, e1]

/-! ## The blocks of the grid -/

/-- Where the three windows' blocks sit, decided over the 16 points: the blocks of `x` and of the result are block `t` of
    the rows and the only block of the columns; the row vector's block is the whole of it. -/
theorem block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT `t` WRITES BACK is block `t` of `x` scaled by the row vector, both as the region finds them. -/
theorem flushed_eq (c : Dev nD) (t : Fin cfg0.N) :
    (dats m 0 c).flushed 2 t
      = ((cfg0.win 2).blk t).view.read (Elt F) (rowScale (V m c main_arg0) (V m c main_call0_v0)) := by
  rw [Value.flushed2]
  funext j
  show out0_2 (iblk m c 0 t) (iblk m c 1 t) j = _
  refine (body_apply (F := F) (iblk m c 0 t) (iblk m c 1 t) j).trans ?_
  obtain ⟨e0, e1, e2, e3, e4, e5⟩ := block_indices t
  show FloatOps.mulf (V m c main_arg0 (((cfg0.win 0).blk t).view.emb j)) (V m c main_call0_v0 (((cfg0.win 1).blk t).view.emb (rowOfBlk j)))
    = FloatOps.mulf (V m c main_arg0 (((cfg0.win 2).blk t).view.emb j)) (V m c main_call0_v0 (rowOf (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 2048 + 1 * (j 1).val = win0_2.index t (1 : Fin 2) * 2048 + 1 * (j 1).val; omega
  have h1 : ((cfg0.win 1).blk t).view.emb (rowOfBlk j) = rowOf (((cfg0.win 2).blk t).view.emb j) := by
    funext a; apply Fin.ext
    match a with
    | ⟨0, _⟩ => show win0_1.index t (0 : Fin 2) * 1 + 1 * 0 = 0; omega
    | ⟨1, _⟩ => show win0_1.index t (1 : Fin 2) * 2048 + 1 * (j 1).val = win0_2.index t (1 : Fin 2) * 2048 + 1 * (j 1).val; omega
  rw [h0, h1]

/-- An index of the result is in point `t`'s block iff each coordinate is in the block's range on its axis. -/
theorem mem_block (t : Fin cfg0.N) (i : S16384x2048.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v0).slice (win0_2.rect t)).set ↔ _
  rw [View.set_slice_whole, Rect.mem_set_unit]
  exact Iff.rfl

/-- THE BLOCKS COVER THE RESULT: row `r` is in the block of point `r / 1024`. -/
theorem covered (i : S16384x2048.Idx) :
    ∃ t : Fin cfg0.N, (cfg0.win 2).flush t = true ∧ i ∈ ((cfg0.win 2).blk t).view.set := by
  have hi0 : (i 0).val < 16384 := (i 0).isLt
  have hi1 : (i 1).val < 2048 := (i 1).isLt
  have hN : (i 0).val / 1024 < grid0.N := by rw [N_0]; omega
  obtain ⟨e0, e1, e2, e3, e4, e5⟩ := block_indices ⟨(i 0).val / 1024, hN⟩
  have e4' : win0_2.index ⟨(i 0).val / 1024, hN⟩ (0 : Fin 2) = (i 0).val / 1024 := e4
  refine ⟨⟨(i 0).val / 1024, hN⟩, flush0_2 _, ?_⟩
  rw [mem_block]
  intro a
  match a with
  | ⟨0, _⟩ =>
    show win0_2.index ⟨(i 0).val / 1024, hN⟩ (0 : Fin 2) * 1024 ≤ (i 0).val
      ∧ (i 0).val < win0_2.index ⟨(i 0).val / 1024, hN⟩ (0 : Fin 2) * 1024 + 1024
    omega
  | ⟨1, _⟩ =>
    show win0_2.index ⟨(i 0).val / 1024, hN⟩ (1 : Fin 2) * 2048 ≤ (i 1).val
      ∧ (i 1).val < win0_2.index ⟨(i 0).val / 1024, hN⟩ (1 : Fin 2) * 2048 + 2048
    omega

/-- THE RESULT after the run: `x` scaled by the row vector, both as the region finds them. -/
theorem final (c : Dev nD) :
    (dats m 0 c).arrAt 2 cfg0.N = rowScale (V m c main_arg0) (V m c main_call0_v0) :=
  (dats m 0 c).arrAt_eq_of_cover 2 _ (fun t _ => flushed_eq m c t) covered

/-! ## The arrays the region finds -/

/-- The region finds the row vector as the reshape left it: the vector `d` as launched, laid out as one row. -/
theorem row_vector (c : Dev nD) :
    (V m c main_call0_v0 : S1x2048.Idx → Elt F .f32)
      = shapeCast S1x2048 (m ((c : Thread nD τ).loc main_arg1)) shapeCasts_S2048_S1x2048 := by
  dsimp only [V, hostOps0]
  after_results
  rfl

/-- So its entry `(0, c)` is `d[c]`. -/
theorem row_vector_apply (c : Dev nD) (k : S1x2048.Idx) :
    V m c main_call0_v0 k = m ((c : Thread nD τ).loc main_arg1) (colOfRow k) := by
  rw [row_vector]
  exact shapeCast_row_apply _ _ k

/-- THE RESULT after the run, of the arguments as launched: the column scaling of `x` by `d`. -/
theorem final_args (c : Dev nD) :
    (dats m 0 c).arrAt 2 cfg0.N
      = colScale (m ((c : Thread nD τ).loc main_arg0)) (m ((c : Thread nD τ).loc main_arg1)) := by
  rw [final, V_main_arg0]
  exact rowScale_eq_colScale _ _ _ (row_vector_apply m c)

/-! ## The run, read -/

/-- Every weakly fair execution of the kernel's program terminates with the result at the column scaling of the
    arguments as launched, and the arguments unchanged. -/
theorem run : θ_run defs (onTc (τ := τ) (main (F := F))) ⟨m, fun _ => 0, ρ⟩ fun r => ∀ c : Dev nD,
      r.2.mem ((c : Thread nD τ).loc main_v0)
        = colScale (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_args m c), (h c).2⟩) (Value.run_blocks m ρ)

end Cert.KernelIdeal.ColumnScale

end
-- ==== Proof.ReferenceValue.lean ====
/-
  The reference, read at an index: it lays the vector `d` out as one row, repeats that row 16384 times, and multiplies
  the result with `x` entry by entry. Entry `(r, c)` of the repeated row is `d[c]`, so the reference's result is the
  column scaling of `x` by `d`.
-/
import proofs.«408189_j82197084111240_3_alg».proof.Proof.Gen.ReferenceIdeal.Read
import proofs.«408189_j82197084111240_3_alg».proof.Proof.ColumnScale

noncomputable section

namespace Cert.ReferenceIdeal.ColumnScale

open Cert.ReferenceIdeal Cert.ReferenceIdeal.Gen Idealize.ShloMosaic Idealize.ShloMosaic.TcCoe Idealize.SL.Sem
open Cert.ColumnScale

variable {F : FTy → Type} [FloatOps F]

/-- Entry `(r, c)` of the row laid out and then repeated is read from the vector at `c`. -/
theorem repeated_index (i : S16384x2048.Idx) : Read.idx_main_v0 (Read.idx_main_v1 i) = colOf i :=
  funext fun a => match a with | ⟨0, _⟩ => rfl

/-- THE REFERENCE'S RESULT is the column scaling of its first argument by its second. -/
theorem result_eq (x : (⟨S16384x2048, .f32⟩ : BufTy).Contents (Elt F)) (d : (⟨S2048, .f32⟩ : BufTy).Contents (Elt F)) :
    Read.val_main_v2 (F := F) x d = colScale x d := by
  funext i
  rw [Read.val_main_v2_apply, Read.val_main_v1_apply, Read.val_main_v0_apply, repeated_index]
  rfl

end Cert.ReferenceIdeal.ColumnScale

end
-- ==== Proof.lean ====
/-
  The kernel multiplies a matrix `x` of 16384 rows and 2048 columns by the diagonal matrix of a vector `d`: entry
  `(r, c)` of the result is `x[r, c] · d[c]`. It does so 1024 rows at a time, the vector staged once as a row and
  repeated down each block of rows; the reference repeats the vector down the whole matrix and multiplies once. Entry by
  entry the two perform the same single multiplication, so their results agree in any number system, the extended reals
  included, with no law of arithmetic and no use of the inputs' finiteness.
  Proof/ColumnScale.lean states the common function; Proof/KernelValue.lean shows that the kernel's result array ends
  holding it (each grid point writes back one block of it, and the blocks cover the array); Proof/ReferenceValue.lean that
  the reference's result is it. Both programs terminate without fault and leave their arguments as launched; the kernel's
  idealization rewrote nothing, so there is nothing to preserve.
-/
import proofs.«408189_j82197084111240_3_alg».proof.Defs
import proofs.«408189_j82197084111240_3_alg».proof.Proof.Gen.Kernel
import proofs.«408189_j82197084111240_3_alg».proof.Proof.Gen.Kernel.Skeleton
import proofs.«408189_j82197084111240_3_alg».proof.Proof.Gen.Kernel.Launch
import proofs.«408189_j82197084111240_3_alg».proof.Proof.Gen.Kernel.Points
import proofs.«408189_j82197084111240_3_alg».proof.Proof.Gen.Kernel.Frame
import proofs.«408189_j82197084111240_3_alg».proof.Proof.Gen.KernelIdeal
import proofs.«408189_j82197084111240_3_alg».proof.Proof.Gen.KernelIdeal.Skeleton
import proofs.«408189_j82197084111240_3_alg».proof.Proof.Gen.KernelIdeal.Launch
import proofs.«408189_j82197084111240_3_alg».proof.Proof.Gen.KernelIdeal.Points
import proofs.«408189_j82197084111240_3_alg».proof.Proof.Gen.KernelIdeal.Frame
import proofs.«408189_j82197084111240_3_alg».proof.Proof.Gen.ReferenceIdeal
import proofs.«408189_j82197084111240_3_alg».proof.Proof.Gen.Pre_finite_inputs
import proofs.«408189_j82197084111240_3_alg».proof.Proof.Gen.KernelIdeal.Value
import proofs.«408189_j82197084111240_3_alg».proof.Proof.Gen.ReferenceIdeal.Run
import proofs.«408189_j82197084111240_3_alg».proof.Proof.Gen.ReferenceIdeal.Read
import proofs.«408189_j82197084111240_3_alg».proof.Proof.ColumnScale
import proofs.«408189_j82197084111240_3_alg».proof.Proof.KernelValue
import proofs.«408189_j82197084111240_3_alg».proof.Proof.ReferenceValue
import Idealize.ShloMosaic.Adequacy
import Idealize.ShloMosaic.Init

noncomputable section

namespace Cert.Proof

open Idealize.ShloMosaic Idealize.SL.Sem

/-- The kernel as printed terminates without fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on `x` and `d`, both programs end with the column scaling of `x` by `d` in their result. -/
theorem algebraic : Cert.algebraic_KernelIdeal_ReferenceIdeal := by
  intro m ρ m' ρ' _ hagree
  refine ⟨_, Cert.KernelIdeal.ColumnScale.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.ColumnScale.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
